-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v10_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v10_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x768x64x64 : Shape := ⟨4, ![16, 768, 64, 64]⟩
abbrev S1024x768 : Shape := ⟨2, ![1024, 768]⟩
abbrev S_ : Shape := ⟨0, ![]⟩

class Facts : Prop where
  bcast_S_S16x768x64x64 : S_.BroadcastsInDim S16x768x64x64 (![] : Fin 0 → Fin S16x768x64x64.rank)
  reducesTo_S16x768x64x64_S_d0_1_2_3 : S16x768x64x64.ReducesTo [0, 1, 2, 3] S_
  h_S_ : 0 < S_.numel
  bcast_S_S1024x768 : S_.BroadcastsInDim S1024x768 (![] : Fin 0 → Fin S1024x768.rank)
  reducesTo_S1024x768_S_d0_1 : S1024x768.ReducesTo [0, 1] S_

variable [Facts]

def fn {F : FTy → Type} [FloatOps F] (main_arg0 : FVec F S16x768x64x64 .f32) (main_arg1 : FVec F S1024x768 .f32) : IVec S_ 1 :=
  let main_v0 : FVec F S16x768x64x64 .f32 := Host.absf main_arg0
  let main_cst : FVec F S_ .f32 := constant S_ .f32 0x7F800000#32
  let main_v1 : FVec F S16x768x64x64 .f32 := broadcastInDim S16x768x64x64 ![] bcast_S_S16x768x64x64 main_cst
  let main_v2 : IVec S16x768x64x64 1 := cmpf .olt main_v0 main_v1
  let main_c : IVec S_ 1 := constantI S_ 1 1#1
  let main_v3 : IVec S_ 1 := (fun x v => Host.reduce IntOp.andi x v reducesTo_S16x768x64x64_S_d0_1_2_3 h_S_) main_v2 main_c
  let main_v4 : FVec F S1024x768 .f32 := Host.absf main_arg1
  let main_cst_0 : FVec F S_ .f32 := constant S_ .f32 0x7F800000#32
  let main_v5 : FVec F S1024x768 .f32 := broadcastInDim S1024x768 ![] bcast_S_S1024x768 main_cst_0
  let main_v6 : IVec S1024x768 1 := cmpf .olt main_v4 main_v5
  let main_c_1 : IVec S_ 1 := constantI S_ 1 1#1
  let main_v7 : IVec S_ 1 := (fun x v => Host.reduce IntOp.andi x v reducesTo_S1024x768_S_d0_1 h_S_) main_v6 main_c_1
  let main_v8 : IVec S_ 1 := andi main_v3 main_v7
  main_v8
-- ==== Kernel.lean ====
abbrev S16x768x64x64 : Shape := ⟨4, ![16, 768, 64, 64]⟩
abbrev S1024x768 : Shape := ⟨2, ![1024, 768]⟩
abbrev S16x64x64x768 : Shape := ⟨4, ![16, 64, 64, 768]⟩
abbrev S16x4096x768 : Shape := ⟨3, ![16, 4096, 768]⟩
abbrev S_ : Shape := ⟨0, ![]⟩
abbrev S1024 : Shape := ⟨1, ![1024]⟩
abbrev S1024x1 : Shape := ⟨2, ![1024, 1]⟩
abbrev S768x1024 : Shape := ⟨2, ![768, 1024]⟩
abbrev S16x4096x1024 : Shape := ⟨3, ![16, 4096, 1024]⟩
abbrev S1x512x768 : Shape := ⟨3, ![1, 512, 768]⟩
abbrev S1x512x1024 : Shape := ⟨3, ![1, 512, 1024]⟩
abbrev S512x768 : Shape := ⟨2, ![512, 768]⟩
abbrev S512 : Shape := ⟨1, ![512]⟩
abbrev S512x1 : Shape := ⟨2, ![512, 1]⟩
abbrev S512x1024 : Shape := ⟨2, ![512, 1024]⟩

abbrev nBuf : Space → Nat
  | .hbm => 21
  | .vmem => 8
  | .smem => 0
  | _ => 0

abbrev bufTy : (tb : Table) → Fin (tcTables nBuf tb) → BufTy
  | .hbm, ⟨0, _⟩ => ⟨S16x768x64x64, .f32⟩
  | .hbm, ⟨1, _⟩ => ⟨S1024x768, .f32⟩
  | .hbm, ⟨2, _⟩ => ⟨S16x64x64x768, .f32⟩
  | .hbm, ⟨3, _⟩ => ⟨S16x4096x768, .f32⟩
  | .hbm, ⟨4, _⟩ => ⟨S1024x768, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S1024x768, .f32⟩
  | .hbm, ⟨13, _⟩ => ⟨S1024x768, .f32⟩
  | .hbm, ⟨14, _⟩ => ⟨S768x1024, .f32⟩
  | .hbm, ⟨15, _⟩ => ⟨S768x1024, .bf16⟩
  | .hbm, ⟨16, _⟩ => ⟨S1024x768, .bf16⟩
  | .hbm, ⟨17, _⟩ => ⟨S16x4096x1024, .f32⟩
  | .hbm, ⟨18, _⟩ => ⟨S16x4096x768, .f32⟩
  | .hbm, ⟨19, _⟩ => ⟨S16x64x64x768, .f32⟩
  | .hbm, ⟨20, _⟩ => ⟨S16x768x64x64, .f32⟩
  | .local _ .vmem, ⟨0, _⟩ => ⟨S1x512x768, .f32⟩
  | .local _ .vmem, ⟨1, _⟩ => ⟨S1x512x768, .f32⟩
  | .local _ .vmem, ⟨2, _⟩ => ⟨S768x1024, .bf16⟩
  | .local _ .vmem, ⟨3, _⟩ => ⟨S1024x768, .bf16⟩
  | .local _ .vmem, ⟨4, _⟩ => ⟨S1x512x1024, .f32⟩
  | .local _ .vmem, ⟨5, _⟩ => ⟨S1x512x1024, .f32⟩
  | .local _ .vmem, ⟨6, _⟩ => ⟨S1x512x768, .f32⟩
  | .local _ .vmem, ⟨7, _⟩ => ⟨S1x512x768, .f32⟩
  | _, _ => ⟨S16x768x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S16x768x64x64_S16x64x64x768_0_2_3_1 : S16x768x64x64.Transposes [0, 2, 3, 1] S16x64x64x768
  shapeCasts_S16x64x64x768_S16x4096x768 : S16x64x64x768.ShapeCasts S16x4096x768
  reducesTo_S1024x768_S1024_d1 : S1024x768.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x768_0_1 : S1024x1.BroadcastsInDim S1024x768 (![0, 1] : Fin 2 → Fin S1024x768.rank)
  transposes_S1024x768_S768x1024_1_0 : S1024x768.Transposes [1, 0] S768x1024
  bitsLt_bf16_f32 : FTy.bits .bf16 < FTy.bits .f32
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  reduces_S512x768_S512 : S512x768.Reduces [1] S512
  shapeCasts_S512_S512x1 : S512.ShapeCasts S512x1
  broadcasts_S512x1_S512x768 : S512x1.Broadcasts S512x768
  inb_S768x1024_S768x1024_0_0 : ∀ a, (![0, 0] : Fin 2 → Nat) a + S768x1024.size a ≤ S768x1024.size a
  h_S768x1024 : 0 < S768x1024.numel
  shapeCasts_S768x1024_S768x1024 : S768x1024.ShapeCasts S768x1024
  reduces_S512x1024_S512 : S512x1024.Reduces [1] S512
  broadcasts_S512x1_S512x1024 : S512x1.Broadcasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  shapeCasts_S512x768_S1x512x768 : S512x768.ShapeCasts S1x512x768
  shapeCasts_S16x4096x768_S16x64x64x768 : S16x4096x768.ShapeCasts S16x64x64x768
  transposes_S16x64x64x768_S16x768x64x64_0_3_1_2 : S16x64x64x768.Transposes [0, 3, 1, 2] S16x768x64x64
  dot_S512x768_S768x1024_S512x1024_1_0_0_1_n_n_wf : DotDims.WF S512x768 S768x1024 S512x1024 [1] [0] [0] [1] [] []
  dot_S512x1024_S1024x768_S512x768_1_0_0_1_n_n_wf : DotDims.WF S512x1024 S1024x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S16x4096x768.size a
  hwx0_0 : ∀ i : grid0.Coords, EltTy.bits .f32 = 32 ∨ (Rect.block (s := S16x4096x768) S1x512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x1024.size a ≤ S768x1024.size a
  hwx0_1 : ∀ i : grid0.Coords, EltTy.bits .bf16 = 32 ∨ (Rect.block (s := S768x1024) S768x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x768.size a ≤ S1024x768.size a
  hwx0_2 : ∀ i : grid0.Coords, EltTy.bits .bf16 = 32 ∨ (Rect.block (s := S1024x768) S1024x768.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S16x4096x1024.size a
  hwx0_3 : ∀ i : grid0.Coords, EltTy.bits .f32 = 32 ∨ (Rect.block (s := S16x4096x1024) S1x512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x768.size a ≤ S16x4096x768.size a
  hwx0_4 : ∀ i : grid0.Coords, EltTy.bits .f32 = 32 ∨ (Rect.block (s := S16x4096x768) S1x512x768.size (cc0_transform_4 i) (hinb0_4 i)).WholeWords (EltTy.packing .f32)

variable [Facts₀]

def dot_S512x768_S768x1024_S512x1024_1_0_0_1_n_n : DotDims S512x768 S768x1024 S512x1024 where
  lhsContracting := [1]
  rhsContracting := [0]
  lhsNonContracting := [0]
  rhsNonContracting := [1]
  lhsBatch := []
  rhsBatch := []
  wf := dot_S512x768_S768x1024_S512x1024_1_0_0_1_n_n_wf
def dot_S512x1024_S1024x768_S512x768_1_0_0_1_n_n : DotDims S512x1024 S1024x768 S512x768 where
  lhsContracting := [1]
  rhsContracting := [0]
  lhsNonContracting := [0]
  rhsNonContracting := [1]
  lhsBatch := []
  rhsBatch := []
  wf := dot_S512x1024_S1024x768_S512x768_1_0_0_1_n_n_wf

abbrev win0_0 : Pipeline.Window sig grid0 :=
  Pipeline.Window.ofSpec (Memref.whole main_v1) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S768x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10_0) S1x512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_1) S1x512x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x768x64x64 : Shape := ⟨4, ![16, 768, 64, 64]⟩
abbrev S1024x768 : Shape := ⟨2, ![1024, 768]⟩
abbrev S16x64x64x768 : Shape := ⟨4, ![16, 64, 64, 768]⟩
abbrev S16x4096x768 : Shape := ⟨3, ![16, 4096, 768]⟩
abbrev S_ : Shape := ⟨0, ![]⟩
abbrev S16x4096 : Shape := ⟨2, ![16, 4096]⟩
abbrev S16x4096x1 : Shape := ⟨3, ![16, 4096, 1]⟩
abbrev S1024 : Shape := ⟨1, ![1024]⟩
abbrev S1024x1 : Shape := ⟨2, ![1024, 1]⟩
abbrev S16x4096x1024 : Shape := ⟨3, ![16, 4096, 1024]⟩

abbrev nBuf : Space → Nat
  | .hbm => 42
  | .vmem => 0
  | .smem => 0
  | _ => 0

abbrev bufTy : (tb : Table) → Fin (tcTables nBuf tb) → BufTy
  | .hbm, ⟨0, _⟩ => ⟨S16x768x64x64, .f32⟩
  | .hbm, ⟨1, _⟩ => ⟨S1024x768, .f32⟩
  | .hbm, ⟨2, _⟩ => ⟨S16x64x64x768, .f32⟩
  | .hbm, ⟨3, _⟩ => ⟨S16x4096x768, .f32⟩
  | .hbm, ⟨4, _⟩ => ⟨S16x4096x768, .f32⟩
  | .hbm, ⟨5, _⟩ => ⟨S_, .f32⟩
  | .hbm, ⟨6, _⟩ => ⟨S16x4096, .f32⟩
  | .hbm, ⟨7, _⟩ => ⟨S16x4096x1, .f32⟩
  | .hbm, ⟨8, _⟩ => ⟨S16x4096x1, .f32⟩
  | .hbm, ⟨9, _⟩ => ⟨S_, .f32⟩
  | .hbm, ⟨10, _⟩ => ⟨S16x4096x1, .f32⟩
  | .hbm, ⟨11, _⟩ => ⟨S16x4096x1, .f32⟩
  | .hbm, ⟨12, _⟩ => ⟨S16x4096x768, .f32⟩
  | .hbm, ⟨13, _⟩ => ⟨S16x4096x768, .f32⟩
  | .hbm, ⟨14, _⟩ => ⟨S1024x768, .f32⟩
  | .hbm, ⟨15, _⟩ => ⟨S_, .f32⟩
  | .hbm, ⟨16, _⟩ => ⟨S1024, .f32⟩
  | .hbm, ⟨17, _⟩ => ⟨S1024x1, .f32⟩
  | .hbm, ⟨18, _⟩ => ⟨S1024x1, .f32⟩
  | .hbm, ⟨19, _⟩ => ⟨S_, .f32⟩
  | .hbm, ⟨20, _⟩ => ⟨S1024x1, .f32⟩
  | .hbm, ⟨21, _⟩ => ⟨S1024x1, .f32⟩
  | .hbm, ⟨22, _⟩ => ⟨S1024x768, .f32⟩
  | .hbm, ⟨23, _⟩ => ⟨S1024x768, .f32⟩
  | .hbm, ⟨24, _⟩ => ⟨S16x4096x1024, .f32⟩
  | .hbm, ⟨25, _⟩ => ⟨S_, .f32⟩
  | .hbm, ⟨26, _⟩ => ⟨S16x4096, .f32⟩
  | .hbm, ⟨27, _⟩ => ⟨S_, .f32⟩
  | .hbm, ⟨28, _⟩ => ⟨S16x4096, .f32⟩
  | .hbm, ⟨29, _⟩ => ⟨S16x4096, .f32⟩
  | .hbm, ⟨30, _⟩ => ⟨S16x4096x1, .f32⟩
  | .hbm, ⟨31, _⟩ => ⟨S16x4096x1024, .f32⟩
  | .hbm, ⟨32, _⟩ => ⟨S16x4096x1024, .f32⟩
  | .hbm, ⟨33, _⟩ => ⟨S16x4096x1024, .f32⟩
  | .hbm, ⟨34, _⟩ => ⟨S_, .f32⟩
  | .hbm, ⟨35, _⟩ => ⟨S16x4096, .f32⟩
  | .hbm, ⟨36, _⟩ => ⟨S16x4096x1, .f32⟩
  | .hbm, ⟨37, _⟩ => ⟨S16x4096x1024, .f32⟩
  | .hbm, ⟨38, _⟩ => ⟨S16x4096x1024, .f32⟩
  | .hbm, ⟨39, _⟩ => ⟨S16x4096x768, .f32⟩
  | .hbm, ⟨40, _⟩ => ⟨S16x64x64x768, .f32⟩
  | .hbm, ⟨41, _⟩ => ⟨S16x768x64x64, .f32⟩
  | _, _ => ⟨S16x768x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]

class Facts₀ : Prop where
  transposes_S16x768x64x64_S16x64x64x768_0_2_3_1 : S16x768x64x64.Transposes [0, 2, 3, 1] S16x64x64x768
  shapeCasts_S16x64x64x768_S16x4096x768 : S16x64x64x768.ShapeCasts S16x4096x768
  reducesTo_S16x4096x768_S16x4096_d2 : S16x4096x768.ReducesTo [2] S16x4096
  h_S_ : 0 < S_.numel
  bcast_S16x4096_S16x4096x1_0_1 : S16x4096.BroadcastsInDim S16x4096x1 (![0, 1] : Fin 2 → Fin S16x4096x1.rank)
  bcast_S_S16x4096x1 : S_.BroadcastsInDim S16x4096x1 (![] : Fin 0 → Fin S16x4096x1.rank)
  bcast_S16x4096x1_S16x4096x768_0_1_2 : S16x4096x1.BroadcastsInDim S16x4096x768 (![0, 1, 2] : Fin 3 → Fin S16x4096x768.rank)
  reducesTo_S1024x768_S1024_d1 : S1024x768.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x768_0_1 : S1024x1.BroadcastsInDim S1024x768 (![0, 1] : Fin 2 → Fin S1024x768.rank)
  reducesTo_S16x4096x1024_S16x4096_d2 : S16x4096x1024.ReducesTo [2] S16x4096
  bcast_S_S16x4096 : S_.BroadcastsInDim S16x4096 (![] : Fin 0 → Fin S16x4096.rank)
  bcast_S16x4096x1_S16x4096x1024_0_1_2 : S16x4096x1.BroadcastsInDim S16x4096x1024 (![0, 1, 2] : Fin 3 → Fin S16x4096x1024.rank)
  shapeCasts_S16x4096x768_S16x64x64x768 : S16x4096x768.ShapeCasts S16x64x64x768
  transposes_S16x64x64x768_S16x768x64x64_0_3_1_2 : S16x64x64x768.Transposes [0, 3, 1, 2] S16x768x64x64
  dot_S16x4096x768_S1024x768_S16x4096x1024_2_1_01_0_n_n_wf : DotDims.WF S16x4096x768 S1024x768 S16x4096x1024 [2] [1] [0, 1] [0] [] []
  dot_S16x4096x1024_S1024x768_S16x4096x768_2_0_01_1_n_n_wf : DotDims.WF S16x4096x1024 S1024x768 S16x4096x768 [2] [0] [0, 1] [1] [] []

variable [Facts₀]

def dot_S16x4096x768_S1024x768_S16x4096x1024_2_1_01_0_n_n : DotDims S16x4096x768 S1024x768 S16x4096x1024 where
  lhsContracting := [2]
  rhsContracting := [1]
  lhsNonContracting := [0, 1]
  rhsNonContracting := [0]
  lhsBatch := []
  rhsBatch := []
  wf := dot_S16x4096x768_S1024x768_S16x4096x1024_2_1_01_0_n_n_wf
def dot_S16x4096x1024_S1024x768_S16x4096x768_2_0_01_1_n_n : DotDims S16x4096x1024 S1024x768 S16x4096x768 where
  lhsContracting := [2]
  rhsContracting := [0]
  lhsNonContracting := [0, 1]
  rhsNonContracting := [1]
  lhsBatch := []
  rhsBatch := []
  wf := dot_S16x4096x1024_S1024x768_S16x4096x768_2_0_01_1_n_n_wf

class Facts : Prop extends Facts₀ where

variable [Facts]
-- ==== Proof.RowSpec.lean ====
/-
  The mathematics both programs compute, row by row, on the extended reals.

  A row x of 768 channels is divided by its clamped Euclidean norm max (sqrt (sum x_k^2)) eps; its scores
  against the 1024 memory rows, each normalized the same way, are the inner products; the scores
  go through a softmax (shifted by the row's maximum); the result mixes the memory rows.  The two
  outputs are the softmax weights, [16, 4096, 1024], and the mixed rows, [16, 4096, 768].

  Also here: the keepdims column forms of a shape cast and a broadcast read at an index, and the
  two bit patterns (zero, minus infinity) the reductions start from.
-/
import Idealize.ShloMosaic.PureOps.Ideal
import Idealize.ShloMosaic.PureOps.Ideal.Laws
import Idealize.ShloMosaic.Lib.ValueIdx
import Idealize.ShloMosaic.Lib.ValueLayout

noncomputable section

namespace Cert.MemAttn

open Idealize.ShloMosaic Idealize.ShloMosaic.ValueIdx

/-! ## One row -/

/-- The floor under a row's norm: the value of the f32 pattern both programs print (about 1e-12). -/
def eps : EReal := Ideal.ofBits .f32 0x2B8CBCCC#32

/-- Minus infinity, as the f32 pattern the maxima start from. -/
def negInf : EReal := Ideal.ofBits .f32 0xFF800000#32

theorem negInf_eq_bot : negInf = ⊥ := by simp [negInf, Ideal.ofBits, Ideal.ieee]

/-- A maximum started from minus infinity is the maximum. -/
theorem max_negInf_left (y : EReal) : max negInf y = y := by rw [negInf_eq_bot]; exact max_bot_left y

/-- The clamped Euclidean norm of a row. -/
def cnorm {K : ℕ} (x : Fin K → EReal) : EReal := max (Ideal.sqrt (∑ k, x k * x k)) eps

/-- The row divided by its clamped norm. -/
def unitRow {K : ℕ} (x : Fin K → EReal) (k : Fin K) : EReal := Ideal.div (x k) (cnorm x)

/-- A row's maximum, from minus infinity. -/
def rowMax {M : ℕ} (s : Fin M → EReal) : EReal := (Finset.univ : Finset (Fin M)).fold max negInf s

/-- The shifted exponential of a row's entry. -/
def shiftExp {M : ℕ} (s : Fin M → EReal) (j : Fin M) : EReal := Ideal.exp (s j - rowMax s)

/-- The softmax of a row. -/
def softmaxRow {M : ℕ} (s : Fin M → EReal) (j : Fin M) : EReal := Ideal.div (shiftExp s j) (∑ j', shiftExp s j')

/-! ## The arrays -/

abbrev SZ : Shape := ⟨3, ![16, 4096, 768]⟩
abbrev SMem : Shape := ⟨2, ![1024, 768]⟩
abbrev SAttn : Shape := ⟨3, ![16, 4096, 1024]⟩

/-- Row (b, n) of the flattened input. -/
def zrow (Z : SZ.Idx → EReal) (b : Fin 16) (n : Fin 4096) : Fin 768 → EReal := fun k => Z (ix3 b n k)

/-- Row j of the memory. -/
def mrow (Mm : SMem.Idx → EReal) (j : Fin 1024) : Fin 768 → EReal := fun k => Mm (ix2 j k)

/-- The cosine scores of a row against normalized memory entries w k j. -/
def scoresW (x : Fin 768 → EReal) (w : Fin 768 → Fin 1024 → EReal) (j : Fin 1024) : EReal := ∑ k, unitRow x k * w k j

/-- The normalized memory, channel by row. -/
def memUnit (Mm : SMem.Idx → EReal) (k : Fin 768) (j : Fin 1024) : EReal := unitRow (mrow Mm j) k

/-- The softmax weights. -/
def attnOf (Z : SZ.Idx → EReal) (Mm : SMem.Idx → EReal) : SAttn.Idx → EReal :=
  fun i => softmaxRow (scoresW (zrow Z (i 0) (i 1)) (memUnit Mm)) (i 2)

/-- The mixed memory rows. -/
def zhatOf (Z : SZ.Idx → EReal) (Mm : SMem.Idx → EReal) : SZ.Idx → EReal :=
  fun i => ∑ j, softmaxRow (scoresW (zrow Z (i 0) (i 1)) (memUnit Mm)) j * Mm (ix2 j (i 2))

/-! ## Keepdims columns read at an index -/

variable {α : Type}

/-- An [a] array cast to the column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (ha : a ≠ 1) (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    rw [if_neg ha]
  | ⟨1, _⟩ => rfl

end Cert.MemAttn

end
-- ==== Proof.RefStages.lean ====
/-
  The reference, stage by stage, is the row mathematics: its two results are the softmax weights
  and the mixed rows of the flattened input (its own transpose and reshape of the first argument)
  against the memory.
-/
import proofs.«127335_j54099408060744_1_alg».proof.Proof.Gen.ReferenceIdeal.Read
import proofs.«127335_j54099408060744_1_alg».proof.Proof.RowSpec
import Idealize.ShloMosaic.PureOps.Reduce

noncomputable section

namespace Cert.MemAttn.Ref

open Cert.ReferenceIdeal Cert.ReferenceIdeal.Gen Cert.ReferenceIdeal.Read Idealize.ShloMosaic Idealize.ShloMosaic.ValueIdx
open Cert.MemAttn

local macro "idx1" : tactic => `(tactic| exact funext fun a => Fin.ext (by match a with | ⟨0, _⟩ => rfl))
local macro "idx2" : tactic => `(tactic| exact funext fun a => Fin.ext (by match a with | ⟨0, _⟩ => rfl | ⟨1, _⟩ => rfl))
local macro "idx3" : tactic => `(tactic| exact funext fun a => Fin.ext (by match a with | ⟨0, _⟩ => rfl | ⟨1, _⟩ => rfl | ⟨2, _⟩ => rfl))

variable (x0 : (⟨S16x768x64x64, .f32⟩ : BufTy).Contents (Elt Ideal)) (x1 : (⟨S1024x768, .f32⟩ : BufTy).Contents (Elt Ideal))

/-- The flattened input: the reference's own transpose and reshape of its first argument. -/
abbrev Zr : SZ.Idx → EReal := val_main_v1 (F := Ideal) x0

/-! ## The input rows' norms -/

/-- The sum of squares of row (b, n). -/
theorem sumsq_z (b : Fin 16) (n : Fin 4096) :
    val_main_call0_v1 (F := Ideal) x0 (ix2 b n) = ∑ k, zrow (Zr x0) b n k * zrow (Zr x0) b n k := by
  rw [val_main_call0_v1_apply]
  show Ideal.ofBits .f32 0x00000000#32 + _ = _
  rw [Ideal.ofBits_zero_f32, zero_add]
  refine Finset.sum_congr rfl fun k _ => ?_
  have e : idx_main_call0_v1 (ix2 b n) k = ix3 b n k := by idx3
  show val_main_call0_v0 (F := Ideal) x0 (idx_main_call0_v1 (ix2 b n) k) = _
  rw [e]; rfl

/-- The clamped norm of row (b, n), as the broadcast column holds it at any channel. -/
theorem norm_z (b : Fin 16) (n : Fin 4096) (k : Fin 768) :
    val_main_v5 (F := Ideal) x0 (ix3 b n k) = cnorm (zrow (Zr x0) b n) := by
  have e5 : idx_main_v5 (ix3 b n k) = ix3 b n (0 : Fin 1) := by idx3
  have e2 : idx_main_call0_v2 (ix3 b n (0 : Fin 1)) = ix2 b n := by idx2
  rw [val_main_v5_apply, e5, val_main_v4_apply, val_main_v2_apply, val_main_call0_v2_apply, e2, sumsq_z, val_main_v3_apply]
  rfl

/-- The reference's normalized input at (b, n, k). -/
theorem unit_z (b : Fin 16) (n : Fin 4096) (k : Fin 768) :
    val_main_v6 (F := Ideal) x0 (ix3 b n k) = unitRow (zrow (Zr x0) b n) k := by
  rw [val_main_v6_apply, norm_z]
  rfl

/-! ## The memory rows' norms -/

theorem sumsq_m (j : Fin 1024) :
    val_main_call1_v1 (F := Ideal) x1 (ix1 j) = ∑ k, mrow x1 j k * mrow x1 j k := by
  rw [val_main_call1_v1_apply]
  show Ideal.ofBits .f32 0x00000000#32 + _ = _
  rw [Ideal.ofBits_zero_f32, zero_add]
  refine Finset.sum_congr rfl fun k _ => ?_
  have e : idx_main_call1_v1 (ix1 j) k = ix2 j k := by idx2
  show val_main_call1_v0 (F := Ideal) x1 (idx_main_call1_v1 (ix1 j) k) = _
  rw [e]; rfl

theorem norm_m (j : Fin 1024) (k : Fin 768) :
    val_main_v10 (F := Ideal) x1 (ix2 j k) = cnorm (mrow x1 j) := by
  have e10 : idx_main_v10 (ix2 j k) = ix2 j (0 : Fin 1) := by idx2
  have e2 : idx_main_call1_v2 (ix2 j (0 : Fin 1)) = ix1 j := by idx1
  rw [val_main_v10_apply, e10, val_main_v9_apply, val_main_v7_apply, val_main_call1_v2_apply, e2, sumsq_m, val_main_v8_apply]
  rfl

/-- The reference's normalized memory at (j, k). -/
theorem unit_m (j : Fin 1024) (k : Fin 768) :
    val_main_v11 (F := Ideal) x1 (ix2 j k) = memUnit x1 k j := by
  rw [val_main_v11_apply, norm_m]
  rfl

/-! ## Scores, softmax, mix -/

/-- The reference's scores of row (b, n). -/
theorem scores_eq (b : Fin 16) (n : Fin 4096) (j : Fin 1024) :
    val_main_v12 (F := Ideal) x0 x1 (ix3 b n j) = scoresW (zrow (Zr x0) b n) (memUnit x1) j := by
  rw [val_main_v12_apply]
  refine Finset.sum_congr rfl fun k _ => ?_
  have el : lidx_main_v12 (ix3 b n j) k = ix3 b n k := by idx3
  have er : ridx_main_v12 (ix3 b n j) k = ix2 j k := by idx2
  rw [el, er, unit_z, unit_m]

/-- A maximum over the last axis, from minus infinity, read at (b, n): the fold of max over that row. -/
theorem hostMax_apply (y : FVec Ideal S16x4096x1024 .f32) (hR : S16x4096x1024.Reduces [2] S16x4096) (b : Fin 16) (n : Fin 4096) :
    Host.reduce FloatOps.maximumf y (val_main_cst_1 (F := Ideal)) reducesTo_S16x4096x1024_S16x4096_d2 h_S_ (ix2 b n)
      = rowMax (fun j => y (ix3 b n j)) := by
  rw [Host.reduce_eq_fold_single FloatOps.maximumf y _ reducesTo_S16x4096x1024_S16x4096_d2 hR h_S_]
  unfold rowMax
  refine congrArg (fun f => Finset.fold max negInf f (Finset.univ : Finset (Fin 1024))) (funext fun j => ?_)
  exact congrArg y (by idx3)

/-- The reference's row maximum: a fold of max from minus infinity over the scores. -/
theorem max_eq (b : Fin 16) (n : Fin 4096) :
    val_main_v13 (F := Ideal) x0 x1 (ix2 b n) = rowMax (scoresW (zrow (Zr x0) b n) (memUnit x1)) := by
  unfold val_main_v13
  rw [hostMax_apply _ (by decide)]
  exact congrArg rowMax (funext fun j => scores_eq x0 x1 b n j)

/-- The shifted exponentials. -/
theorem exp_eq (b : Fin 16) (n : Fin 4096) (j : Fin 1024) :
    val_main_v19 (F := Ideal) x0 x1 (ix3 b n j) = shiftExp (scoresW (zrow (Zr x0) b n) (memUnit x1)) j := by
  have e17 : idx_main_v17 (ix3 b n j) = ix3 b n (0 : Fin 1) := by idx3
  have e16 : idx_main_v16 (ix3 b n (0 : Fin 1)) = ix2 b n := by idx2
  rw [val_main_v19_apply, val_main_v18_apply, scores_eq, val_main_v17_apply, e17, val_main_v16_apply, e16, val_main_v15_apply, max_eq,
    val_main_v14_apply]
  show Ideal.exp (_ - max negInf _) = _
  rw [max_negInf_left]
  rfl

/-- The softmax weights: the reference's second result, stage 23. -/
theorem attn_eq : val_main_v23 (F := Ideal) x0 x1 = attnOf (Zr x0) x1 := by
  funext i
  obtain ⟨b, n, j, rfl⟩ : ∃ (b : Fin 16) (n : Fin 4096) (j : Fin 1024), i = ix3 b n j := ⟨i 0, i 1, i 2, eq_ix3 i⟩
  have e22 : idx_main_v22 (ix3 b n j) = ix3 b n (0 : Fin 1) := by idx3
  have e21 : idx_main_v21 (ix3 b n (0 : Fin 1)) = ix2 b n := by idx2
  rw [val_main_v23_apply, exp_eq, val_main_v22_apply, e22, val_main_v21_apply, e21, val_main_v20_apply]
  show Ideal.div _ (Ideal.ofBits .f32 0x00000000#32 + _) = _
  rw [Ideal.ofBits_zero_f32, zero_add]
  unfold attnOf softmaxRow
  refine congrArg (Ideal.div _) (Finset.sum_congr rfl fun j' _ => ?_)
  have e20 : idx_main_v20 (ix2 b n) j' = ix3 b n j' := by idx3
  show val_main_v19 (F := Ideal) x0 x1 (idx_main_v20 (ix2 b n) j') = _
  rw [e20, exp_eq]

/-- The mixed rows: stage 24, before the final reshape and transpose. -/
theorem zhat_eq : val_main_v24 (F := Ideal) x0 x1 = zhatOf (Zr x0) x1 := by
  funext i
  obtain ⟨b, n, c, rfl⟩ : ∃ (b : Fin 16) (n : Fin 4096) (c : Fin 768), i = ix3 b n c := ⟨i 0, i 1, i 2, eq_ix3 i⟩
  rw [val_main_v24_apply, attn_eq]
  unfold zhatOf
  refine Finset.sum_congr rfl fun j _ => ?_
  have el : lidx_main_v24 (ix3 b n c) j = ix3 b n j := by idx3
  have er : ridx_main_v24 (ix3 b n c) j = ix2 j c := by idx2
  rw [el, er]
  rfl

end Cert.MemAttn.Ref

end
-- ==== Proof.KernelPayload.lean ====
/-
  The kernel body's arithmetic on one block, read at an index: for row p of a [1, 512, 768] block, the
  stored weights are the softmax of the row's scores against the resident [768, 1024] table, and the
  stored mix is those weights against the resident [1024, 768] memory.
-/
import proofs.«127335_j54099408060744_1_alg».proof.Proof.Gen.KernelIdeal.Skeleton
import proofs.«127335_j54099408060744_1_alg».proof.Proof.RowSpec
import Idealize.ShloMosaic.PureOps.Reduce

noncomputable section

namespace Cert.MemAttn.Ker

open Cert.KernelIdeal Cert.KernelIdeal.Gen Idealize.ShloMosaic Idealize.ShloMosaic.ValueIdx
open Cert.MemAttn

local macro "idx1" : tactic => `(tactic| exact funext fun a => Fin.ext (by match a with | ⟨0, _⟩ => rfl))
local macro "idx2" : tactic => `(tactic| exact funext fun a => Fin.ext (by match a with | ⟨0, _⟩ => rfl | ⟨1, _⟩ => rfl))

variable (x0 : FVec Ideal S1x512x768 .f32) (x1 : FVec Ideal S768x1024 .bf16) (x2 : FVec Ideal S1024x768 .bf16)

/-- Row p of the block. -/
def brow (p : Fin 512) : Fin 768 → EReal := fun k => x0 (ix3 (0 : Fin 1) p k)

/-! ## The stages of the body -/

/-- The block without its unit axis. -/
def kx : FVec Ideal S512x768 .f32 := shapeCast S512x768 x0 shapeCasts_S1x512x768_S512x768

theorem kx_apply (p : Fin 512) (k : Fin 768) : kx x0 (ix2 p k) = brow x0 p k :=
  shapeCast_1ab_ab_apply x0 shapeCasts_S1x512x768_S512x768 p k

/-- A lane sum over the last axis of a [512, n] vector, read at row p. -/
theorem laneSum768_apply (y : FVec Ideal S512x768 .f32) (p : Fin 512) :
    multiReduction .add [1] S512 y 0x00000000#32 reduces_S512x768_S512 (.inl rfl) rfl (ix1 p) = ∑ k : Fin 768, y (ix2 p k) := by
  refine (Ideal.multiReduction_add_single y 0x00000000#32 reduces_S512x768_S512 (.inl rfl) rfl (ix1 p)).trans ?_
  refine Finset.sum_congr rfl fun k _ => ?_
  exact congrArg y (by idx2)

theorem laneSum1024_apply (y : FVec Ideal S512x1024 .f32) (p : Fin 512) :
    multiReduction .add [1] S512 y 0x00000000#32 reduces_S512x1024_S512 (.inl rfl) rfl (ix1 p) = ∑ j : Fin 1024, y (ix2 p j) := by
  refine (Ideal.multiReduction_add_single y 0x00000000#32 reduces_S512x1024_S512 (.inl rfl) rfl (ix1 p)).trans ?_
  refine Finset.sum_congr rfl fun k _ => ?_
  exact congrArg y (by idx2)

/-- A lane maximum from minus infinity over the last axis, read at row p. -/
theorem laneMax1024_apply (y : FVec Ideal S512x1024 .f32) (p : Fin 512) :
    multiReduction .maximumf [1] S512 y 0xFF800000#32 reduces_S512x1024_S512 (.inl rfl) rfl (ix1 p) = rowMax (fun j => y (ix2 p j)) := by
  refine (Ideal.multiReduction_maximumf_single y 0xFF800000#32 reduces_S512x1024_S512 (.inl rfl) rfl (ix1 p)).trans ?_
  unfold rowMax
  refine congrArg (fun f => Finset.fold max negInf f (Finset.univ : Finset (Fin 1024))) (funext fun j => ?_)
  exact congrArg y (by idx2)

/-- A row statistic kept as a column and spread over the lanes reads the statistic. -/
theorem spread768_apply (v : FVec Ideal S512 .f32) (p : Fin 512) (k : Fin 768) :
    broadcastTo S512x768 (shapeCast S512x1 v shapeCasts_S512_S512x1) broadcasts_S512x1_S512x768 (ix2 p k) = v (ix1 p) :=
  (broadcastTo_a1_ab_apply (by decide) _ broadcasts_S512x1_S512x768 p k).trans (shapeCast_a_a1_apply v shapeCasts_S512_S512x1 p 0)

theorem spread1024_apply (v : FVec Ideal S512 .f32) (p : Fin 512) (j : Fin 1024) :
    broadcastTo S512x1024 (shapeCast S512x1 v shapeCasts_S512_S512x1) broadcasts_S512x1_S512x1024 (ix2 p j) = v (ix1 p) :=
  (broadcastTo_a1_ab_apply (by decide) _ broadcasts_S512x1_S512x1024 p j).trans (shapeCast_a_a1_apply v shapeCasts_S512_S512x1 p 0)

/-- The rows' sums of squares. -/
def ksumsq : FVec Ideal S512 .f32 :=
  multiReduction .add [1] S512 (mulf (kx x0) (kx x0)) 0x00000000#32 reduces_S512x768_S512 (.inl rfl) rfl

theorem ksumsq_apply (p : Fin 512) : ksumsq x0 (ix1 p) = ∑ k, brow x0 p k * brow x0 p k := by
  unfold ksumsq
  refine (laneSum768_apply _ p).trans (Finset.sum_congr rfl fun k _ => ?_)
  show kx x0 (ix2 p k) * kx x0 (ix2 p k) = _
  rw [kx_apply]

/-- The rows' clamped norms, as a column. -/
def knorm : FVec Ideal S512x1 .f32 :=
  maximumf (sqrt (shapeCast S512x1 (ksumsq x0) shapeCasts_S512_S512x1)) (broadcast S512x1 (Scalar.ofBits .f32 0x2B8CBCCC#32))

/-- The normalized rows. -/
def kunit : FVec Ideal S512x768 .bf16 :=
  truncf .bf16 (divf (kx x0) (broadcastTo S512x768 (knorm x0) broadcasts_S512x1_S512x768)) bitsLt_bf16_f32

theorem kunit_apply (p : Fin 512) (k : Fin 768) : kunit x0 (ix2 p k) = unitRow (brow x0 p) k := by
  show Ideal.div (kx x0 (ix2 p k)) (broadcastTo S512x768 (knorm x0) broadcasts_S512x1_S512x768 (ix2 p k)) = _
  rw [kx_apply, broadcastTo_a1_ab_apply (by decide) _ broadcasts_S512x1_S512x768 p k]
  show Ideal.div _ (max (Ideal.sqrt (shapeCast S512x1 (ksumsq x0) shapeCasts_S512_S512x1 (ix2 p (0 : Fin 1)))) eps) = _
  rw [shapeCast_a_a1_apply _ shapeCasts_S512_S512x1 p 0, ksumsq_apply]
  rfl

/-! ### The two matrix products -/

theorem lhs_sc_0 (i : S512x1024.Idx) (q : dot_S512x768_S768x1024_S512x1024_1_0_0_1_n_n.contr.Idx) :
    (dot_S512x768_S768x1024_S512x1024_1_0_0_1_n_n.lhsIdx i q 0).val = (i 0).val := by
  unfold DotDims.lhsIdx
  rw [dif_neg (show ¬(0 : Fin S512x768.rank) ∈ dot_S512x768_S768x1024_S512x1024_1_0_0_1_n_n.lhsBatch by decide), dif_pos (show (0 : Fin S512x768.rank) ∈ dot_S512x768_S768x1024_S512x1024_1_0_0_1_n_n.lhsNonContracting by decide)]
  rfl
theorem lhs_sc_1 (i : S512x1024.Idx) (q : dot_S512x768_S768x1024_S512x1024_1_0_0_1_n_n.contr.Idx) :
    (dot_S512x768_S768x1024_S512x1024_1_0_0_1_n_n.lhsIdx i q 1).val = (q ⟨0, by decide⟩).val :=
  dot_S512x768_S768x1024_S512x1024_1_0_0_1_n_n.lhsIdx_val_of_single rfl i q
theorem rhs_sc_0 (i : S512x1024.Idx) (q : dot_S512x768_S768x1024_S512x1024_1_0_0_1_n_n.contr.Idx) :
    (dot_S512x768_S768x1024_S512x1024_1_0_0_1_n_n.rhsIdx i q 0).val = (q ⟨0, by decide⟩).val :=
  dot_S512x768_S768x1024_S512x1024_1_0_0_1_n_n.rhsIdx_val_of_single rfl i q
theorem rhs_sc_1 (i : S512x1024.Idx) (q : dot_S512x768_S768x1024_S512x1024_1_0_0_1_n_n.contr.Idx) :
    (dot_S512x768_S768x1024_S512x1024_1_0_0_1_n_n.rhsIdx i q 1).val = (i 1).val := by
  unfold DotDims.rhsIdx
  rw [dif_neg (show ¬(1 : Fin S768x1024.rank) ∈ dot_S512x768_S768x1024_S512x1024_1_0_0_1_n_n.rhsBatch by decide), dif_pos (show (1 : Fin S768x1024.rank) ∈ dot_S512x768_S768x1024_S512x1024_1_0_0_1_n_n.rhsNonContracting by decide)]
  rfl

/-- The product of a [512, 768] by a [768, 1024] matrix into zero, at (p, j): the sum over the 768 channels. -/
theorem scoresProd_apply (y0 : FVec Ideal S512x768 .bf16) (y1 : FVec Ideal S768x1024 .bf16) (p : Fin 512) (j : Fin 1024) :
    matmul dot_S512x768_S768x1024_S512x1024_1_0_0_1_n_n none y0 y1 (constant S512x1024 .f32 0x00000000#32) (ix2 p j) = ∑ k : Fin 768, y0 (ix2 p k) * y1 (ix2 k j) := by
  refine (Ideal.matmul_constant_zero_apply dot_S512x768_S768x1024_S512x1024_1_0_0_1_n_n none y0 y1 (ix2 p j)).trans ?_
  rw [← Equiv.sum_comp (ValueIdx.contrEquiv1 dot_S512x768_S768x1024_S512x1024_1_0_0_1_n_n 768 rfl rfl).symm]
  refine Finset.sum_congr rfl fun k _ => ?_
  have hk := ValueIdx.contrEquiv1_symm_val dot_S512x768_S768x1024_S512x1024_1_0_0_1_n_n 768 rfl rfl k
  have el : dot_S512x768_S768x1024_S512x1024_1_0_0_1_n_n.lhsIdx (ix2 p j) ((ValueIdx.contrEquiv1 dot_S512x768_S768x1024_S512x1024_1_0_0_1_n_n 768 rfl rfl).symm k) = ix2 p k := funext fun a => Fin.ext (by
    match a with
    | ⟨0, _⟩ => exact lhs_sc_0 _ _
    | ⟨1, _⟩ => exact (lhs_sc_1 _ _).trans hk)
  have er : dot_S512x768_S768x1024_S512x1024_1_0_0_1_n_n.rhsIdx (ix2 p j) ((ValueIdx.contrEquiv1 dot_S512x768_S768x1024_S512x1024_1_0_0_1_n_n 768 rfl rfl).symm k) = ix2 k j := funext fun a => Fin.ext (by
    match a with
    | ⟨0, _⟩ => exact (rhs_sc_0 _ _).trans hk
    | ⟨1, _⟩ => exact rhs_sc_1 _ _)
  rw [el, er]

theorem lhs_mx_0 (i : S512x768.Idx) (q : dot_S512x1024_S1024x768_S512x768_1_0_0_1_n_n.contr.Idx) :
    (dot_S512x1024_S1024x768_S512x768_1_0_0_1_n_n.lhsIdx i q 0).val = (i 0).val := by
  unfold DotDims.lhsIdx
  rw [dif_neg (show ¬(0 : Fin S512x1024.rank) ∈ dot_S512x1024_S1024x768_S512x768_1_0_0_1_n_n.lhsBatch by decide), dif_pos (show (0 : Fin S512x1024.rank) ∈ dot_S512x1024_S1024x768_S512x768_1_0_0_1_n_n.lhsNonContracting by decide)]
  rfl
theorem lhs_mx_1 (i : S512x768.Idx) (q : dot_S512x1024_S1024x768_S512x768_1_0_0_1_n_n.contr.Idx) :
    (dot_S512x1024_S1024x768_S512x768_1_0_0_1_n_n.lhsIdx i q 1).val = (q ⟨0, by decide⟩).val :=
  dot_S512x1024_S1024x768_S512x768_1_0_0_1_n_n.lhsIdx_val_of_single rfl i q
theorem rhs_mx_0 (i : S512x768.Idx) (q : dot_S512x1024_S1024x768_S512x768_1_0_0_1_n_n.contr.Idx) :
    (dot_S512x1024_S1024x768_S512x768_1_0_0_1_n_n.rhsIdx i q 0).val = (q ⟨0, by decide⟩).val :=
  dot_S512x1024_S1024x768_S512x768_1_0_0_1_n_n.rhsIdx_val_of_single rfl i q
theorem rhs_mx_1 (i : S512x768.Idx) (q : dot_S512x1024_S1024x768_S512x768_1_0_0_1_n_n.contr.Idx) :
    (dot_S512x1024_S1024x768_S512x768_1_0_0_1_n_n.rhsIdx i q 1).val = (i 1).val := by
  unfold DotDims.rhsIdx
  rw [dif_neg (show ¬(1 : Fin S1024x768.rank) ∈ dot_S512x1024_S1024x768_S512x768_1_0_0_1_n_n.rhsBatch by decide), dif_pos (show (1 : Fin S1024x768.rank) ∈ dot_S512x1024_S1024x768_S512x768_1_0_0_1_n_n.rhsNonContracting by decide)]
  rfl

/-- The product of a [512, 1024] by a [1024, 768] matrix into zero, at (p, c): the sum over the 1024 memory rows. -/
theorem mixProd_apply (y0 : FVec Ideal S512x1024 .bf16) (y1 : FVec Ideal S1024x768 .bf16) (p : Fin 512) (c : Fin 768) :
    matmul dot_S512x1024_S1024x768_S512x768_1_0_0_1_n_n none y0 y1 (constant S512x768 .f32 0x00000000#32) (ix2 p c) = ∑ j : Fin 1024, y0 (ix2 p j) * y1 (ix2 j c) := by
  refine (Ideal.matmul_constant_zero_apply dot_S512x1024_S1024x768_S512x768_1_0_0_1_n_n none y0 y1 (ix2 p c)).trans ?_
  rw [← Equiv.sum_comp (ValueIdx.contrEquiv1 dot_S512x1024_S1024x768_S512x768_1_0_0_1_n_n 1024 rfl rfl).symm]
  refine Finset.sum_congr rfl fun k _ => ?_
  have hk := ValueIdx.contrEquiv1_symm_val dot_S512x1024_S1024x768_S512x768_1_0_0_1_n_n 1024 rfl rfl k
  have el : dot_S512x1024_S1024x768_S512x768_1_0_0_1_n_n.lhsIdx (ix2 p c) ((ValueIdx.contrEquiv1 dot_S512x1024_S1024x768_S512x768_1_0_0_1_n_n 1024 rfl rfl).symm k) = ix2 p k := funext fun a => Fin.ext (by
    match a with
    | ⟨0, _⟩ => exact lhs_mx_0 _ _
    | ⟨1, _⟩ => exact (lhs_mx_1 _ _).trans hk)
  have er : dot_S512x1024_S1024x768_S512x768_1_0_0_1_n_n.rhsIdx (ix2 p c) ((ValueIdx.contrEquiv1 dot_S512x1024_S1024x768_S512x768_1_0_0_1_n_n 1024 rfl rfl).symm k) = ix2 k c := funext fun a => Fin.ext (by
    match a with
    | ⟨0, _⟩ => exact (rhs_mx_0 _ _).trans hk
    | ⟨1, _⟩ => exact rhs_mx_1 _ _)
  rw [el, er]

/-! ### Scores and softmax -/

/-- The scores of the block's rows against the resident table. -/
def kscores : FVec Ideal S512x1024 .f32 :=
  matmul dot_S512x768_S768x1024_S512x1024_1_0_0_1_n_n none (kunit x0) (shapeCast S768x1024 x1 shapeCasts_S768x1024_S768x1024) (constant S512x1024 .f32 0x00000000#32)

/-- Row p's scores: the normalized row against the table's columns. -/
def tableScores (p : Fin 512) : Fin 1024 → EReal := scoresW (brow x0 p) (fun k j => x1 (ix2 k j))

theorem kscores_apply (p : Fin 512) (j : Fin 1024) : kscores x0 x1 (ix2 p j) = tableScores x0 x1 p j := by
  unfold kscores
  rw [shapeCast_self]
  refine (scoresProd_apply _ _ p j).trans ?_
  unfold tableScores scoresW
  refine Finset.sum_congr rfl fun k _ => ?_
  rw [kunit_apply]

/-- The rows' maxima. -/
def kmax : FVec Ideal S512 .f32 :=
  multiReduction .maximumf [1] S512 (kscores x0 x1) 0xFF800000#32 reduces_S512x1024_S512 (.inl rfl) rfl

theorem kmax_apply (p : Fin 512) : kmax x0 x1 (ix1 p) = rowMax (tableScores x0 x1 p) := by
  unfold kmax
  refine (laneMax1024_apply _ p).trans (congrArg rowMax (funext fun j => kscores_apply x0 x1 p j))

/-- The shifted exponentials. -/
def kexp : FVec Ideal S512x1024 .f32 :=
  exp (subf (kscores x0 x1) (broadcastTo S512x1024 (shapeCast S512x1 (kmax x0 x1) shapeCasts_S512_S512x1) broadcasts_S512x1_S512x1024))

theorem kexp_apply (p : Fin 512) (j : Fin 1024) : kexp x0 x1 (ix2 p j) = shiftExp (tableScores x0 x1 p) j := by
  show Ideal.exp (kscores x0 x1 (ix2 p j) - broadcastTo S512x1024 (shapeCast S512x1 (kmax x0 x1) shapeCasts_S512_S512x1) broadcasts_S512x1_S512x1024 (ix2 p j)) = _
  rw [spread1024_apply, kscores_apply, kmax_apply]
  rfl

/-- The rows' sums of exponentials. -/
def ksum : FVec Ideal S512 .f32 :=
  multiReduction .add [1] S512 (kexp x0 x1) 0x00000000#32 reduces_S512x1024_S512 (.inl rfl) rfl

theorem ksum_apply (p : Fin 512) : ksum x0 x1 (ix1 p) = ∑ j, shiftExp (tableScores x0 x1 p) j := by
  unfold ksum
  refine (laneSum1024_apply _ p).trans (Finset.sum_congr rfl fun j _ => kexp_apply x0 x1 p j)

/-- The softmax weights of the block's rows. -/
def kattn : FVec Ideal S512x1024 .f32 :=
  divf (kexp x0 x1) (broadcastTo S512x1024 (shapeCast S512x1 (ksum x0 x1) shapeCasts_S512_S512x1) broadcasts_S512x1_S512x1024)

theorem kattn_apply (p : Fin 512) (j : Fin 1024) : kattn x0 x1 (ix2 p j) = softmaxRow (tableScores x0 x1 p) j := by
  show Ideal.div (kexp x0 x1 (ix2 p j)) (broadcastTo S512x1024 (shapeCast S512x1 (ksum x0 x1) shapeCasts_S512_S512x1) broadcasts_S512x1_S512x1024 (ix2 p j)) = _
  rw [spread1024_apply, kexp_apply, ksum_apply]
  rfl

/-! ## The payloads -/

/-- The body's quotient is the staged softmax. -/
theorem pay1_eq : k0_pay1 (F := Ideal) x0 x1 = kattn x0 x1 := rfl

/-- The stored weights at (u, p, j). -/
theorem pay2_apply (u : Fin 1) (p : Fin 512) (j : Fin 1024) :
    k0_pay2 (F := Ideal) x0 x1 (ix3 u p j) = softmaxRow (tableScores x0 x1 p) j := by
  unfold k0_pay2
  rw [pay1_eq]
  exact (shapeCast_ab_1ab_apply _ shapeCasts_S512x1024_S1x512x1024 u p j).trans (kattn_apply x0 x1 p j)

/-- The stored mix at (u, p, c). -/
theorem pay3_apply (u : Fin 1) (p : Fin 512) (c : Fin 768) :
    k0_pay3 (F := Ideal) x0 x1 x2 (ix3 u p c) = ∑ j : Fin 1024, softmaxRow (tableScores x0 x1 p) j * x2 (ix2 j c) := by
  unfold k0_pay3
  rw [pay1_eq]
  refine (shapeCast_ab_1ab_apply _ shapeCasts_S512x768_S1x512x768 u p c).trans ?_
  rw [shapeCast_self]
  refine (mixProd_apply _ _ p c).trans (Finset.sum_congr rfl fun j _ => ?_)
  show kattn x0 x1 (ix2 p j) * _ = _
  rw [kattn_apply]

end Cert.MemAttn.Ker

end
-- ==== Proof.KernelHost.lean ====
/-
  What the kernel's region finds in its three input arrays: the flattened input (a transpose and a
  reshape of the first argument), the memory normalized row by row and transposed, and the memory itself.
  The normalization before the region is, term for term, the reference's own normalization of the memory,
  so its reading at an index is shared.
-/
import proofs.«127335_j54099408060744_1_alg».proof.Proof.Gen.KernelIdeal.Frame
import proofs.«127335_j54099408060744_1_alg».proof.Proof.RefStages
import Idealize.ShloMosaic.Lib.StableHlo.Run

noncomputable section

namespace Cert.MemAttn.Ker

open Cert.KernelIdeal Cert.KernelIdeal.Gen Idealize.ShloMosaic Idealize.ShloMosaic.TcCoe Idealize.SL.Sem Idealize.ShloMosaic.ValueIdx
open Idealize.ShloMosaic.StableHlo
open Cert.MemAttn

variable (m : (ℓ : Loc nD τ sig) → Buf (Elt Ideal) ℓ)

/-- The first argument as launched. -/
abbrev argZ (c : Dev nD) : S16x768x64x64.Idx → EReal := m ((c : Thread nD τ).loc main_arg0)

/-- The memory as launched. -/
abbrev argM (c : Dev nD) : SMem.Idx → EReal := m ((c : Thread nD τ).loc main_arg1)

/-- The flattened input the region stages: [16, 4096, 768], channels last. -/
def flatZ (c : Dev nD) : SZ.Idx → EReal :=
  shapeCast S16x4096x768 (transpose S16x64x64x768 [0, 2, 3, 1] (argZ m c) transposes_S16x768x64x64_S16x64x64x768_0_2_3_1) shapeCasts_S16x64x64x768_S16x4096x768

theorem V_flat (c : Dev nD) : (V m c main_v1 : SZ.Idx → EReal) = flatZ m c := by
  dsimp only [V, V0]
  simp only [hostOps0, hostOps0_1, hostOps0_2, List.flatten_cons, List.flatten_nil, List.append_nil, List.cons_append, List.nil_append]
  after_results
  rfl

/-- The normalized, transposed memory the region stages: [768, 1024]. -/
def tableM (c : Dev nD) : FVec Ideal S768x1024 .bf16 :=
  truncf (F := Ideal) .bf16 (transpose S768x1024 [1, 0] (Cert.ReferenceIdeal.Read.val_main_v11 (F := Ideal) (argM m c)) transposes_S1024x768_S768x1024_1_0) bitsLt_bf16_f32

theorem V_table (c : Dev nD) : (V m c main_v8 : FVec Ideal S768x1024 .bf16) = tableM m c := by
  dsimp only [V, V0]
  simp only [hostOps0, hostOps0_1, hostOps0_2, List.flatten_cons, List.flatten_nil, List.append_nil, List.cons_append, List.nil_append]
  after_results
  rfl

/-- The table at (k, j) is channel k of memory row j divided by that row's clamped norm. -/
theorem table_apply (c : Dev nD) (k : Fin 768) (j : Fin 1024) : tableM m c (ix2 k j) = memUnit (argM m c) k j :=
  (transpose_ix2_apply _ transposes_S1024x768_S768x1024_1_0 k j).trans (Cert.MemAttn.Ref.unit_m (argM m c) j k)

/-- The third staged array is the memory itself (its change of format is the identity). -/
theorem V_mem (c : Dev nD) : (V m c main_v9 : SMem.Idx → EReal) = argM m c := by
  dsimp only [V, V0]
  simp only [hostOps0, hostOps0_1, hostOps0_2, List.flatten_cons, List.flatten_nil, List.append_nil, List.cons_append, List.nil_append]
  after_results
  rfl

end Cert.MemAttn.Ker

end
-- ==== Proof.KernelBlocks.lean ====
/-
  From blocks to arrays.  Grid point t = (b, nb) stages rows nb*512 .. nb*512+511 of batch b of the
  flattened input and the two resident tables whole, and writes back the same rows of the two
  outputs; every row of each output is in exactly the block of the point that covers it.  So after the
  run the weights' array is the softmax weights of every row, and the mixed array the mix of every row.
-/
import proofs.«127335_j54099408060744_1_alg».proof.Proof.Gen.KernelIdeal.Frame
import proofs.«127335_j54099408060744_1_alg».proof.Proof.KernelPayload
import proofs.«127335_j54099408060744_1_alg».proof.Proof.KernelHost
import Idealize.ShloMosaic.Lib.Pipeline.Value

set_option maxRecDepth 16384

noncomputable section

namespace Cert.MemAttn.Ker

open Cert.KernelIdeal Cert.KernelIdeal.Gen Idealize.ShloMosaic Idealize.ShloMosaic.TcCoe Idealize.SL.Sem Idealize.ShloMosaic.ValueIdx
open Idealize.ShloMosaic.Pipeline (Dat)
open Cert.MemAttn

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-- The weights every row ends with. -/
def attnArr (c : Dev nD) : SAttn.Idx → EReal := attnOf (flatZ m c) (argM m c)

/-- The mix every row ends with. -/
def zhatArr (c : Dev nD) : SZ.Idx → EReal := zhatOf (flatZ m c) (argM m c)

/-- The printed index maps over the grid: the input block and both output blocks sit at (b, nb, 0), the
    resident tables at (0, 0). -/
theorem idx_facts : ∀ t : Fin cfg0.N,
    win0_0.index t (0 : Fin 3) = win0_3.index t (0 : Fin 3)
    ∧ win0_0.index t (1 : Fin 3) = win0_3.index t (1 : Fin 3)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) < 16 ∧ win0_3.index t (1 : Fin 3) < 8 ∧ win0_3.index t (2 : Fin 3) = 0
    ∧ win0_4.index t (0 : Fin 3) = win0_3.index t (0 : Fin 3)
    ∧ win0_4.index t (1 : Fin 3) = win0_3.index t (1 : Fin 3)
    ∧ win0_4.index t (2 : Fin 3) = 0 :=
  (by decide +kernel : ∀ t : Fin grid0.N, _)

/-- Every (batch, row block) is some point's. -/
theorem idx_onto : ∀ (q0 : Fin 16) (q1 : Fin 8), ∃ t : Fin cfg0.N,
    win0_3.index t = ![q0.val, q1.val, 0] ∧ win0_4.index t = ![q0.val, q1.val, 0] :=
  (by decide +kernel : ∀ (q0 : Fin 16) (q1 : Fin 8), ∃ t : Fin grid0.N,
    win0_3.index t = ![q0.val, q1.val, 0] ∧ win0_4.index t = ![q0.val, q1.val, 0])

/-! ## What the staged blocks hold -/

/-- Row p of the input block at point t is row (B, N) of the flattened input, when (B, N) is where the block puts it. -/
theorem brow_block (c : Dev nD) (t : Fin cfg0.N) (p : Fin 512) (B : Fin 16) (N : Fin 4096)
    (hB : B.val = win0_0.index t (0 : Fin 3)) (hN : N.val = win0_0.index t (1 : Fin 3) * 512 + p.val)
    (h2 : win0_0.index t (2 : Fin 3) = 0) :
    brow (iblk m c 0 t) p = zrow (flatZ m c) B N := by
  funext k
  show V m c main_v1 (((cfg0.win 0).blk t).view.emb (ix3 (0 : Fin 1) p k)) = flatZ m c (ix3 B N k)
  refine (congrFun (V_flat m c) _).trans (congrArg (flatZ m c) (funext fun a => Fin.ext ?_))
  match a with
  | ⟨0, _⟩ => show win0_0.index t (0 : Fin 3) * 1 + 1 * 0 = B.val; omega
  | ⟨1, _⟩ => show win0_0.index t (1 : Fin 3) * 512 + 1 * p.val = N.val; omega
  | ⟨2, _⟩ => show win0_0.index t (2 : Fin 3) * 768 + 1 * k.val = k.val; omega

/-- The resident table block is the normalized memory. -/
theorem table_block (c : Dev nD) (t : Fin cfg0.N) (h0 : win0_1.index t (0 : Fin 2) = 0) (h1 : win0_1.index t (1 : Fin 2) = 0) :
    (fun (k : Fin 768) (j : Fin 1024) => iblk m c 1 t (ix2 k j)) = memUnit (argM m c) := by
  funext k j
  show V m c main_v8 (((cfg0.win 1).blk t).view.emb (ix2 k j)) = memUnit (argM m c) k j
  have he : ((cfg0.win 1).blk t).view.emb (ix2 k j) = ix2 k j := by
    funext a; apply Fin.ext
    match a with
    | ⟨0, _⟩ => show win0_1.index t (0 : Fin 2) * 768 + 1 * k.val = k.val; omega
    | ⟨1, _⟩ => show win0_1.index t (1 : Fin 2) * 1024 + 1 * j.val = j.val; omega
  rw [he]
  exact (congrFun (V_table m c) (ix2 k j)).trans (table_apply m c k j)

/-- The resident memory block is the memory. -/
theorem mem_block (c : Dev nD) (t : Fin cfg0.N) (h0 : win0_2.index t (0 : Fin 2) = 0) (h1 : win0_2.index t (1 : Fin 2) = 0)
    (j : Fin 1024) (k : Fin 768) : iblk m c 2 t (ix2 j k) = argM m c (ix2 j k) := by
  show V m c main_v9 (((cfg0.win 2).blk t).view.emb (ix2 j k)) = argM m c (ix2 j k)
  have he : ((cfg0.win 2).blk t).view.emb (ix2 j k) = ix2 j k := by
    funext a; apply Fin.ext
    match a with
    | ⟨0, _⟩ => show win0_2.index t (0 : Fin 2) * 1024 + 1 * j.val = j.val; omega
    | ⟨1, _⟩ => show win0_2.index t (1 : Fin 2) * 768 + 1 * k.val = k.val; omega
  rw [he]
  exact congrFun (V_mem m c) (ix2 j k)

/-- The scores the body computes for row p at point t are row (B, N)'s. -/
theorem scores_block (c : Dev nD) (t : Fin cfg0.N) (p : Fin 512) (B : Fin 16) (N : Fin 4096)
    (hB : B.val = win0_0.index t (0 : Fin 3)) (hN : N.val = win0_0.index t (1 : Fin 3) * 512 + p.val)
    (h2 : win0_0.index t (2 : Fin 3) = 0) (h10 : win0_1.index t (0 : Fin 2) = 0) (h11 : win0_1.index t (1 : Fin 2) = 0) :
    tableScores (iblk m c 0 t) (iblk m c 1 t) p = scoresW (zrow (flatZ m c) B N) (memUnit (argM m c)) := by
  unfold tableScores
  rw [brow_block m c t p B N hB hN h2, table_block m c t h10 h11]

/-! ## The weights' array (output window 3) -/

/-- What point t writes back to the weights' array is block t of the weights of every row. -/
theorem flushed3_eq (c : Dev nD) (t : Fin cfg0.N) :
    (dats m 0 c).flushed 3 t = ((cfg0.win 3).blk t).view.read (Elt Ideal) (attnArr m c) := by
  show (cfg0.win 3).cut (grid0.coords t) ((dats m 0 c).after 3 t) = _
  rw [after0_3]
  unfold out0_3
  rw [View.canon_unit_zero hz3]
  simp only [View.ld_unit_zero (S := S1x512x768) hz3, View.ld_unit_zero (S := S768x1024) hz2]
  obtain ⟨e00, e01, e02, e10, e11, e20, e21, b0, b1, e32, e40, e41, e42⟩ := idx_facts t
  funext y
  obtain ⟨u, p, j, rfl⟩ : ∃ (u : Fin 1) (p : Fin 512) (j : Fin 1024), y = ix3 u p j :=
    ⟨y 0, y 1, y 2, eq_ix3 (n0 := 1) (n1 := 512) (n2 := 1024) y⟩
  show k0_pay2 (F := Ideal) (iblk m c 0 t) (iblk m c 1 t) (ix3 u p j) = attnArr m c (((cfg0.win 3).blk t).view.emb (ix3 u p j))
  refine (pay2_apply (iblk m c 0 t) (iblk m c 1 t) u p j).trans ?_
  have he : ((cfg0.win 3).blk t).view.emb (ix3 u p j)
      = ix3 (⟨win0_3.index t (0 : Fin 3), b0⟩ : Fin 16) (⟨win0_3.index t (1 : Fin 3) * 512 + p.val, by omega⟩ : Fin 4096) j := by
    funext a; apply Fin.ext
    match a with
    | ⟨0, _⟩ => show win0_3.index t (0 : Fin 3) * 1 + 1 * u.val = win0_3.index t (0 : Fin 3); omega
    | ⟨1, _⟩ => show win0_3.index t (1 : Fin 3) * 512 + 1 * p.val = win0_3.index t (1 : Fin 3) * 512 + p.val; omega
    | ⟨2, _⟩ => show win0_3.index t (2 : Fin 3) * 1024 + 1 * j.val = j.val; omega
  rw [he]
  unfold attnArr attnOf
  refine congrArg (fun s => softmaxRow s j) ?_
  exact scores_block m c t p ⟨win0_3.index t (0 : Fin 3), b0⟩ ⟨win0_3.index t (1 : Fin 3) * 512 + p.val, by omega⟩ e00.symm
    (by show win0_3.index t (1 : Fin 3) * 512 + p.val = win0_0.index t (1 : Fin 3) * 512 + p.val; omega) e02 e10 e11

theorem mem_blk3 (t : Fin cfg0.N) (i : SAttn.Idx) :
    i ∈ ((cfg0.win 3).blk t).view.set ↔ ∀ a : Fin 3, win0_3.index t a * S1x512x1024.size a ≤ (i a).val ∧ (i a).val < win0_3.index t a * S1x512x1024.size a + S1x512x1024.size a := by
  show i ∈ ((View.whole main_v10_0).slice (win0_3.rect t)).set ↔ _
  rw [View.set_slice_whole, Rect.mem_set_unit]
  exact Iff.rfl

/-- Every entry of the weights' array is in the block of the point of its batch and row block. -/
theorem cover3 (i : SAttn.Idx) : ∃ t : Fin cfg0.N, (cfg0.win 3).flush t = true ∧ i ∈ ((cfg0.win 3).blk t).view.set := by
  have hi0 : (i 0).val < 16 := (i 0).isLt
  have hi1 : (i 1).val < 4096 := (i 1).isLt
  have hi2 : (i 2).val < 1024 := (i 2).isLt
  obtain ⟨t, ht3, -⟩ := idx_onto ⟨(i 0).val, hi0⟩ ⟨(i 1).val / 512, by omega⟩
  have q0 : win0_3.index t (0 : Fin 3) = (i 0).val := congrFun ht3 0
  have q1 : win0_3.index t (1 : Fin 3) = (i 1).val / 512 := congrFun ht3 1
  have q2 : win0_3.index t (2 : Fin 3) = 0 := congrFun ht3 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1024 ≤ (i 2).val ∧ (i 2).val < win0_3.index t (2 : Fin 3) * 1024 + 1024; omega

/-- The weights' array after the run. -/
theorem final3 (c : Dev nD) : (dats m 0 c).arrAt 3 cfg0.N = attnArr m c :=
  (dats m 0 c).arrAt_eq_of_cover 3 (attnArr m c) (fun t _ => flushed3_eq m c t) cover3

/-! ## The mixed array (output window 4) -/

/-- What point t writes back to the mixed array is block t of the mix of every row. -/
theorem flushed4_eq (c : Dev nD) (t : Fin cfg0.N) :
    (dats m 0 c).flushed 4 t = ((cfg0.win 4).blk t).view.read (Elt Ideal) (zhatArr m c) := by
  show (cfg0.win 4).cut (grid0.coords t) ((dats m 0 c).after 4 t) = _
  rw [after0_4]
  unfold out0_4
  rw [View.canon_unit_zero hz3]
  simp only [View.ld_unit_zero (S := S1x512x768) hz3, View.ld_unit_zero (S := S768x1024) hz2, View.ld_unit_zero (S := S1024x768) hz2]
  obtain ⟨e00, e01, e02, e10, e11, e20, e21, b0, b1, e32, e40, e41, e42⟩ := idx_facts t
  funext y
  obtain ⟨u, p, k, rfl⟩ : ∃ (u : Fin 1) (p : Fin 512) (k : Fin 768), y = ix3 u p k :=
    ⟨y 0, y 1, y 2, eq_ix3 (n0 := 1) (n1 := 512) (n2 := 768) y⟩
  show k0_pay3 (F := Ideal) (iblk m c 0 t) (iblk m c 1 t) (iblk m c 2 t) (ix3 u p k) = zhatArr m c (((cfg0.win 4).blk t).view.emb (ix3 u p k))
  refine (pay3_apply (iblk m c 0 t) (iblk m c 1 t) (iblk m c 2 t) u p k).trans ?_
  have he : ((cfg0.win 4).blk t).view.emb (ix3 u p k)
      = ix3 (⟨win0_3.index t (0 : Fin 3), b0⟩ : Fin 16) (⟨win0_3.index t (1 : Fin 3) * 512 + p.val, by omega⟩ : Fin 4096) k := by
    funext a; apply Fin.ext
    match a with
    | ⟨0, _⟩ => show win0_4.index t (0 : Fin 3) * 1 + 1 * u.val = win0_3.index t (0 : Fin 3); omega
    | ⟨1, _⟩ => show win0_4.index t (1 : Fin 3) * 512 + 1 * p.val = win0_3.index t (1 : Fin 3) * 512 + p.val; omega
    | ⟨2, _⟩ => show win0_4.index t (2 : Fin 3) * 768 + 1 * k.val = k.val; omega
  rw [he]
  unfold zhatArr zhatOf
  refine Finset.sum_congr rfl fun j _ => ?_
  have hsc := scores_block m c t p ⟨win0_3.index t (0 : Fin 3), b0⟩ ⟨win0_3.index t (1 : Fin 3) * 512 + p.val, by omega⟩ e00.symm
    (by show win0_3.index t (1 : Fin 3) * 512 + p.val = win0_0.index t (1 : Fin 3) * 512 + p.val; omega) e02 e10 e11
  rw [hsc, mem_block m c t e20 e21]

theorem mem_blk4 (t : Fin cfg0.N) (i : SZ.Idx) :
    i ∈ ((cfg0.win 4).blk t).view.set ↔ ∀ a : Fin 3, win0_4.index t a * S1x512x768.size a ≤ (i a).val ∧ (i a).val < win0_4.index t a * S1x512x768.size a + S1x512x768.size a := by
  show i ∈ ((View.whole main_v10_1).slice (win0_4.rect t)).set ↔ _
  rw [View.set_slice_whole, Rect.mem_set_unit]
  exact Iff.rfl

theorem cover4 (i : SZ.Idx) : ∃ t : Fin cfg0.N, (cfg0.win 4).flush t = true ∧ i ∈ ((cfg0.win 4).blk t).view.set := by
  have hi0 : (i 0).val < 16 := (i 0).isLt
  have hi1 : (i 1).val < 4096 := (i 1).isLt
  have hi2 : (i 2).val < 768 := (i 2).isLt
  obtain ⟨t, -, ht4⟩ := idx_onto ⟨(i 0).val, hi0⟩ ⟨(i 1).val / 512, by omega⟩
  have q0 : win0_4.index t (0 : Fin 3) = (i 0).val := congrFun ht4 0
  have q1 : win0_4.index t (1 : Fin 3) = (i 1).val / 512 := congrFun ht4 1
  have q2 : win0_4.index t (2 : Fin 3) = 0 := congrFun ht4 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 768 ≤ (i 2).val ∧ (i 2).val < win0_4.index t (2 : Fin 3) * 768 + 768; omega

/-- The mixed array after the run. -/
theorem final4 (c : Dev nD) : (dats m 0 c).arrAt 4 cfg0.N = zhatArr m c :=
  (dats m 0 c).arrAt_eq_of_cover 4 (zhatArr m c) (fun t _ => flushed4_eq m c t) cover4

end Cert.MemAttn.Ker

end
-- ==== Proof.KernelRun.lean ====
/-
  The kernel program's run, read: after the region the weights' array holds every row's softmax
  weights; the two host operations after the region reshape the mixed array to [16, 64, 64, 768] and
  move the channels to the second axis; the arguments end as launched.
-/
import proofs.«127335_j54099408060744_1_alg».proof.Proof.Gen.KernelIdeal.Frame
import proofs.«127335_j54099408060744_1_alg».proof.Proof.KernelBlocks
import Idealize.ShloMosaic.Lib.StableHlo.Run

set_option maxRecDepth 16384

noncomputable section

namespace Cert.MemAttn.Ker

open Cert.KernelIdeal Cert.KernelIdeal.Gen Idealize.ShloMosaic Idealize.ShloMosaic.TcCoe Idealize.SL.Sem Idealize.ShloMosaic.ValueIdx
open Idealize.ShloMosaic.StableHlo
open Idealize.ShloMosaic.Pipeline (Dat)
open Cert.MemAttn

variable (m : (ℓ : Loc nD τ sig) → Buf (Elt Ideal) ℓ) (ρ : Dev nD → PrngReg)

/-- The first result: the mixed rows as [16, 768, 64, 64]. -/
def outZ (c : Dev nD) : S16x768x64x64.Idx → EReal :=
  transpose S16x768x64x64 [0, 3, 1, 2] (shapeCast S16x64x64x768 (zhatArr m c) shapeCasts_S16x4096x768_S16x64x64x768)
    transposes_S16x64x64x768_S16x768x64x64_0_3_1_2

/-- The lines after the region leave the first result at the reshaped, transposed mixed array. -/
theorem tail_v12 (c : Dev nD) : Pipeline.afterTail₀ cfgs (dats m) 0 (V0 m) [hostOps1] c main_v12 = outZ m c := by
  unfold Pipeline.afterTail₀
  show StableHlo.after hostOps1 _ (Proc.devRef .tc main_v12) = _
  after_results
  unfold outZ
  refine congrArg (fun x : S16x4096x768.Idx → EReal => transpose S16x768x64x64 [0, 3, 1, 2]
    (shapeCast S16x64x64x768 x shapeCasts_S16x4096x768_S16x64x64x768) transposes_S16x64x64x768_S16x768x64x64_0_3_1_2) ?_
  exact (Pipeline.withArrays_arr spec0 launch0.win.arr_inj c _ _ 4).trans (final4 m c)

/-- Every weakly fair execution of the kernel program ends with the two results at the row mathematics
    of the arguments, and the arguments unchanged. -/
theorem run : θ_run defs (onTc (τ := τ) (main (F := Ideal))) ⟨m, fun _ => 0, ρ⟩ fun r => ∀ c : Dev nD,
      r.2.mem ((c : Thread nD τ).loc main_v12) = outZ m c
      ∧ r.2.mem ((c : Thread nD τ).loc main_v10_0) = attnArr m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨
      ((h c).2 main_v12 (Pipeline.mem_restRefs_of main_v12 (by decide) (by decide))).trans (tail_v12 m c),
      ((h c).1 3).trans (final3 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.MemAttn.Ker

end
-- ==== Proof.Bridge.lean ====
/-
  The two programs meet: the reference's flattened input is the kernel's (the same transpose and
  reshape of the first argument), so the reference's two results, stage by stage the row mathematics,
  are the arrays the kernel program ends with.
-/
import proofs.«127335_j54099408060744_1_alg».proof.Proof.RefStages
import proofs.«127335_j54099408060744_1_alg».proof.Proof.KernelRun

noncomputable section

namespace Cert.MemAttn

open Idealize.ShloMosaic Idealize.ShloMosaic.TcCoe Idealize.SL.Sem
open Cert.KernelIdeal (nD τ sig main_arg0 main_arg1)

variable (m : (ℓ : Loc nD τ sig) → Buf (Elt Ideal) ℓ)

/-- The reference's flattened input, of the kernel's first argument, is the array the kernel's region stages. -/
theorem flat_eq (c : Dev nD) : Ref.Zr (Ker.argZ m c) = Ker.flatZ m c := rfl

/-- The reference's weights are the kernel's. -/
theorem attn_bridge (c : Dev nD) :
    Cert.ReferenceIdeal.Read.val_main_v23 (F := Ideal) (Ker.argZ m c) (Ker.argM m c) = Ker.attnArr m c := by
  rw [Ref.attn_eq, flat_eq]
  rfl

/-- The reference's first result is the kernel's: the same reshape and transpose of the same mixed rows. -/
theorem out_bridge (c : Dev nD) :
    Cert.ReferenceIdeal.Read.val_main_v26 (F := Ideal) (Ker.argZ m c) (Ker.argM m c) = Ker.outZ m c := by
  unfold Cert.ReferenceIdeal.Read.val_main_v26 Cert.ReferenceIdeal.Read.val_main_v25
  rw [Ref.zhat_eq, flat_eq]
  rfl

end Cert.MemAttn

end
-- ==== Proof.lean ====
/-
  Cosine-similarity memory attention: each of the 16 x 4096 rows of the input (768 channels, flattened
  channels-last) is divided by its clamped Euclidean norm, scored against the 1024 memory rows normalized
  the same way, passed through a softmax, and used to mix the memory rows.  The kernel does this 512 rows
  at a time with the whole memory resident; the reference does it on whole arrays.  On the extended reals
  both compute, index by index, the same function of the two arguments: the softmax weights
  [16, 4096, 1024], and the mixed rows reshaped and transposed to [16, 768, 64, 64].  No rearrangement of a
  sum is involved (each row's reductions run over the same index sets on both sides), so the
  precondition is not used.

  The modules: RowSpec (the row mathematics), RefStages (the reference is that), KernelPayload (the
  kernel body on a block is that), KernelHost (what the region's input arrays hold), KernelBlocks (blocks
  to arrays), KernelRun (the kernel program's run, with the operations after the region), Bridge (the two
  sides' arrays are the same).
-/
import proofs.«127335_j54099408060744_1_alg».proof.Defs
import proofs.«127335_j54099408060744_1_alg».proof.Proof.Gen.Kernel
import proofs.«127335_j54099408060744_1_alg».proof.Proof.Gen.Kernel.Skeleton
import proofs.«127335_j54099408060744_1_alg».proof.Proof.Gen.Kernel.Launch
import proofs.«127335_j54099408060744_1_alg».proof.Proof.Gen.Kernel.Points
import proofs.«127335_j54099408060744_1_alg».proof.Proof.Gen.Kernel.Frame
import proofs.«127335_j54099408060744_1_alg».proof.Proof.Gen.KernelIdeal
import proofs.«127335_j54099408060744_1_alg».proof.Proof.Gen.KernelIdeal.Skeleton
import proofs.«127335_j54099408060744_1_alg».proof.Proof.Gen.KernelIdeal.Launch
import proofs.«127335_j54099408060744_1_alg».proof.Proof.Gen.KernelIdeal.Points
import proofs.«127335_j54099408060744_1_alg».proof.Proof.Gen.KernelIdeal.Frame
import proofs.«127335_j54099408060744_1_alg».proof.Proof.Gen.ReferenceIdeal
import proofs.«127335_j54099408060744_1_alg».proof.Proof.Gen.ReferenceIdeal.Run
import proofs.«127335_j54099408060744_1_alg».proof.Proof.Gen.ReferenceIdeal.Read
import proofs.«127335_j54099408060744_1_alg».proof.Proof.Gen.Pre_finite_inputs
import proofs.«127335_j54099408060744_1_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does the idealized one. -/
theorem frame_ki : Cert.frame_KernelIdeal := fun m ρ _ => Cert.KernelIdeal.Gen.frame m ρ

/-- The reference runs and keeps its arguments: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both idealized programs end with the mixed rows and the softmax weights of the same arguments. -/
theorem algebraic : Cert.algebraic_KernelIdeal_ReferenceIdeal := by
  intro m ρ m' ρ' _ hagree
  refine ⟨fun c => Cert.MemAttn.Ker.outZ m c, fun c => Cert.MemAttn.Ker.attnArr m c, Cert.MemAttn.Ker.run m ρ, ?_⟩
  refine (θ_run Cert.ReferenceIdeal.defs _ _).mono (fun _ h c => ⟨(h c).1.trans ?_, (h c).2.1.trans ?_, (h c).2.2.1, (h c).2.2.2⟩)
    (Cert.ReferenceIdeal.Value.run (F := Ideal) m' ρ')
  · rw [Cert.ReferenceIdeal.Read.val_main_v26_eq, (hagree c).1, (hagree c).2]
    exact Cert.MemAttn.out_bridge m c
  · rw [Cert.ReferenceIdeal.Read.val_main_v23_eq, (hagree c).1, (hagree c).2]
    exact Cert.MemAttn.attn_bridge m c

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
